-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S8192x10 : Shape := ⟨2, ![8192, 10]⟩
abbrev S_ : Shape := ⟨0, ![]⟩

class Facts : Prop where
  bcast_S_S8192x10 : S_.BroadcastsInDim S8192x10 (![] : Fin 0 → Fin S8192x10.rank)
  reducesTo_S8192x10_S_d0_1 : S8192x10.ReducesTo [0, 1] S_
  h_S_ : 0 < S_.numel

variable [Facts]

def fn {F : FTy → Type} [FloatOps F] (main_arg0 : IVec S8192x10 32) : IVec S_ 1 :=
  let main_c : IVec S_ 32 := constantI S_ 32 0#32
  let main_v0 : IVec S8192x10 32 := broadcastInDim S8192x10 ![] bcast_S_S8192x10 main_c
  let main_v1 : IVec S8192x10 1 := cmpi .sge main_arg0 main_v0
  let main_c_0 : IVec S_ 1 := constantI S_ 1 1#1
  let main_v2 : IVec S_ 1 := (fun x v => Host.reduce IntOp.andi x v reducesTo_S8192x10_S_d0_1 h_S_) main_v1 main_c_0
  main_v2
-- ==== Kernel.lean ====
abbrev S8192x10 : Shape := ⟨2, ![8192, 10]⟩
abbrev S8192x32000 : Shape := ⟨2, ![8192, 32000]⟩
abbrev S1024x10 : Shape := ⟨2, ![1024, 10]⟩
abbrev S1024x3200 : Shape := ⟨2, ![1024, 3200]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x10, .i32⟩
  | .hbm, ⟨1, _⟩ => ⟨S8192x32000, .f32⟩
  | .local _ .vmem, ⟨0, _⟩ => ⟨S1024x10, .i32⟩
  | .local _ .vmem, ⟨1, _⟩ => ⟨S1024x10, .i32⟩
  | .local _ .vmem, ⟨2, _⟩ => ⟨S1024x3200, .f32⟩
  | .local _ .vmem, ⟨3, _⟩ => ⟨S1024x3200, .f32⟩
  | _, _ => ⟨S8192x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x10 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  iota_S1024x3200_d1_w32 : S1024x3200.Iotas .tc 32 [1]
  inb_S1024x10_S1024x1_0_0 : ∀ a, (![0, 0] : Fin 2 → Nat) a + S1024x1.size a ≤ S1024x10.size a
  h_S1024x1 : 0 < S1024x1.numel
  broadcasts_S1024x1_S1024x3200 : S1024x1.Broadcasts S1024x3200
  inb_S1024x10_S1024x1_0_1 : ∀ a, (![0, 1] : Fin 2 → Nat) a + S1024x1.size a ≤ S1024x10.size a
  inb_S1024x10_S1024x1_0_2 : ∀ a, (![0, 2] : Fin 2 → Nat) a + S1024x1.size a ≤ S1024x10.size a
  inb_S1024x10_S1024x1_0_3 : ∀ a, (![0, 3] : Fin 2 → Nat) a + S1024x1.size a ≤ S1024x10.size a
  inb_S1024x10_S1024x1_0_4 : ∀ a, (![0, 4] : Fin 2 → Nat) a + S1024x1.size a ≤ S1024x10.size a
  inb_S1024x10_S1024x1_0_5 : ∀ a, (![0, 5] : Fin 2 → Nat) a + S1024x1.size a ≤ S1024x10.size a
  inb_S1024x10_S1024x1_0_6 : ∀ a, (![0, 6] : Fin 2 → Nat) a + S1024x1.size a ≤ S1024x10.size a
  inb_S1024x10_S1024x1_0_7 : ∀ a, (![0, 7] : Fin 2 → Nat) a + S1024x1.size a ≤ S1024x10.size a
  inb_S1024x10_S1024x1_0_8 : ∀ a, (![0, 8] : Fin 2 → Nat) a + S1024x1.size a ≤ S1024x10.size a
  inb_S1024x10_S1024x1_0_9 : ∀ a, (![0, 9] : Fin 2 → Nat) a + S1024x1.size a ≤ S1024x10.size a
  natLt_1_32 : 1 < 32
  inb_S1024x3200_S1024x3200_0_0 : ∀ a, (![0, 0] : Fin 2 → Nat) a + S1024x3200.size a ≤ S1024x3200.size a
  h_S1024x3200 : 0 < S1024x3200.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10.size a ≤ S8192x10.size a
  hwx0_0 : ∀ i : grid0.Coords, EltTy.bits .i32 = 32 ∨ (Rect.block (s := S8192x10) S1024x10.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3200.size a ≤ S8192x32000.size a
  hwx0_1 : ∀ i : grid0.Coords, EltTy.bits .f32 = 32 ∨ (Rect.block (s := S8192x32000) S1024x3200.size (cc0_transform_1 i) (hinb0_1 i)).WholeWords (EltTy.packing .f32)

variable [Facts₀]

abbrev win0_0 : Pipeline.Window sig grid0 :=
  Pipeline.Window.ofSpec (Memref.whole main_arg0) S1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x10 : Shape := ⟨2, ![8192, 10]⟩
abbrev S_ : Shape := ⟨0, ![]⟩
abbrev S8192x32000 : Shape := ⟨2, ![8192, 32000]⟩
abbrev S8192 : Shape := ⟨1, ![8192]⟩
abbrev S8192x1 : Shape := ⟨2, ![8192, 1]⟩
abbrev S8192x10x1 : Shape := ⟨3, ![8192, 10, 1]⟩
abbrev S8192x10x2 : Shape := ⟨3, ![8192, 10, 2]⟩

abbrev nBuf : Space → Nat
  | .hbm => 26
  | .vmem => 0
  | .smem => 0
  | _ => 0

abbrev bufTy : (tb : Table) → Fin (tcTables nBuf tb) → BufTy
  | .hbm, ⟨0, _⟩ => ⟨S8192x10, .i32⟩
  | .hbm, ⟨1, _⟩ => ⟨S_, .f32⟩
  | .hbm, ⟨2, _⟩ => ⟨S8192x32000, .f32⟩
  | .hbm, ⟨3, _⟩ => ⟨S8192, .i32⟩
  | .hbm, ⟨4, _⟩ => ⟨S8192x1, .i32⟩
  | .hbm, ⟨5, _⟩ => ⟨S_, .i32⟩
  | .hbm, ⟨6, _⟩ => ⟨S8192x1, .i32⟩
  | .hbm, ⟨7, _⟩ => ⟨S8192x1, .i1⟩
  | .hbm, ⟨8, _⟩ => ⟨S_, .i32⟩
  | .hbm, ⟨9, _⟩ => ⟨S8192x1, .i32⟩
  | .hbm, ⟨10, _⟩ => ⟨S8192x1, .i32⟩
  | .hbm, ⟨11, _⟩ => ⟨S8192x1, .i32⟩
  | .hbm, ⟨12, _⟩ => ⟨S_, .i32⟩
  | .hbm, ⟨13, _⟩ => ⟨S8192x10, .i32⟩
  | .hbm, ⟨14, _⟩ => ⟨S8192x10, .i1⟩
  | .hbm, ⟨15, _⟩ => ⟨S_, .i32⟩
  | .hbm, ⟨16, _⟩ => ⟨S8192x10, .i32⟩
  | .hbm, ⟨17, _⟩ => ⟨S8192x10, .i32⟩
  | .hbm, ⟨18, _⟩ => ⟨S8192x10, .i32⟩
  | .hbm, ⟨19, _⟩ => ⟨S8192x10, .i32⟩
  | .hbm, ⟨20, _⟩ => ⟨S8192x10x1, .i32⟩
  | .hbm, ⟨21, _⟩ => ⟨S8192x10x1, .i32⟩
  | .hbm, ⟨22, _⟩ => ⟨S8192x10x2, .i32⟩
  | .hbm, ⟨23, _⟩ => ⟨S_, .f32⟩
  | .hbm, ⟨24, _⟩ => ⟨S8192x10, .f32⟩
  | .hbm, ⟨25, _⟩ => ⟨S8192x32000, .f32⟩
  | _, _ => ⟨S8192x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S8192x32000 : S_.BroadcastsInDim S8192x32000 (![] : Fin 0 → Fin S8192x32000.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S8192x10 : S_.BroadcastsInDim S8192x10 (![] : Fin 0 → Fin S8192x10.rank)
  bcast_S8192x1_S8192x10_0_1 : S8192x1.BroadcastsInDim S8192x10 (![0, 1] : Fin 2 → Fin S8192x10.rank)
  bcast_S8192x10_S8192x10x1_0_1 : S8192x10.BroadcastsInDim S8192x10x1 (![0, 1] : Fin 2 → Fin S8192x10x1.rank)
  concatenates_S8192x10x1_S8192x10x1_S8192x10x2_d2 : Shape.Concatenates [S8192x10x1, S8192x10x1] S8192x10x2 2
  scatter_S8192x32000_S8192x10x2_S8192x10_n_01_01_2_wf : ScatterDims.WF S8192x32000 S8192x10x2 S8192x10 [] [0, 1] [0, 1] 2

variable [Facts₀]

def scatter_S8192x32000_S8192x10x2_S8192x10_n_01_01_2 : ScatterDims S8192x32000 S8192x10x2 S8192x10 where
  updateWindowDims := []
  insertedWindowDims := [0, 1]
  scatterDimsToOperandDims := [0, 1]
  indexVectorDim := 2
  wf := scatter_S8192x32000_S8192x10x2_S8192x10_n_01_01_2_wf

class Facts : Prop extends Facts₀ where

variable [Facts]
-- ==== Proof.MultiHot.lean ====
/-
  THE MULTI-HOT ENCODING both programs compute: for a table `x` of token ids, ten to a row, the `[8192, 32000]` array
  whose entry `(n, c)` is `1` when some `x[n, k]` is the id `c` and `0` otherwise. An id is compared as a 32-bit
  word with the column number's word; the columns are below `32000 < 2³¹`, so a word equal to a column's is that
  column read signed or unsigned alike.
-/
import Idealize.ShloMosaic.PureOps.Ideal
import Idealize.ShloMosaic.Lib.ValueIdx

noncomputable section

namespace Cert.MultiHot

open Idealize.ShloMosaic Idealize.ShloMosaic.ValueIdx

/-- Entry `(n, c)` is `1` exactly when one of row `n`'s ten ids is `c`. -/
def multiHot (x : IVec ⟨2, ![8192, 10]⟩ 32) : (⟨2, ![8192, 32000]⟩ : Shape).Idx → EReal :=
  fun i => if ∃ k : Fin 10, x (ix2 (i 0) k) = BitVec.ofNat 32 (i 1).val then 1 else 0

theorem multiHot_apply (x : IVec ⟨2, ![8192, 10]⟩ 32) (n : Fin 8192) (c : Fin 32000) :
    multiHot x (ix2 n c) = if ∃ k : Fin 10, x (ix2 n k) = BitVec.ofNat 32 c.val then 1 else 0 := rfl

/-- Ten alternatives, one per id of a row, as one existential over the row. -/
theorem exists_fin10 (P : Fin 10 → Prop) :
    (∃ k : Fin 10, P k) ↔ (P 0 ∨ P 1 ∨ P 2 ∨ P 3 ∨ P 4 ∨ P 5 ∨ P 6 ∨ P 7 ∨ P 8 ∨ P 9) := by
  constructor
  · rintro ⟨k, hk⟩
    fin_cases k
    · exact Or.inl hk
    · exact Or.inr (Or.inl hk)
    · exact Or.inr (Or.inr (Or.inl hk))
    · exact Or.inr (Or.inr (Or.inr (Or.inl hk)))
    · exact Or.inr (Or.inr (Or.inr (Or.inr (Or.inl hk))))
    · exact Or.inr (Or.inr (Or.inr (Or.inr (Or.inr (Or.inl hk)))))
    · exact Or.inr (Or.inr (Or.inr (Or.inr (Or.inr (Or.inr (Or.inl hk))))))
    · exact Or.inr (Or.inr (Or.inr (Or.inr (Or.inr (Or.inr (Or.inr (Or.inl hk)))))))
    · exact Or.inr (Or.inr (Or.inr (Or.inr (Or.inr (Or.inr (Or.inr (Or.inr (Or.inl hk))))))))
    · exact Or.inr (Or.inr (Or.inr (Or.inr (Or.inr (Or.inr (Or.inr (Or.inr (Or.inr hk))))))))
  · rintro (h | h | h | h | h | h | h | h | h | h)
    exacts [⟨0, h⟩, ⟨1, h⟩, ⟨2, h⟩, ⟨3, h⟩, ⟨4, h⟩, ⟨5, h⟩, ⟨6, h⟩, ⟨7, h⟩, ⟨8, h⟩, ⟨9, h⟩]

/-- A one-bit mask widened to a word and converted to a float is `1` where the bit is set and `0` where it is not. -/
theorem hot_of_bit (b : Bool) :
    FloatOps.sitofp (F := Ideal) .f32 ((BitVec.ofBool b).setWidth 32) = if b = true then (1 : EReal) else 0 := by
  cases b
  · show (((0#32).toInt : ℝ) : EReal) = _
    simp
  · show (((1#32).toInt : ℝ) : EReal) = _
    rw [if_pos rfl]
    have : (1#32).toInt = 1 := by decide
    rw [this]; simp

/-- THE KERNEL'S ARITHMETIC AT ONE ENTRY: ten equality tests of one column word `c` against ten ids, joined by `or`
    from the left, widened and converted, is `1` when some id is `c` and `0` otherwise. -/
theorem hot_of_tests (c a0 a1 a2 a3 a4 a5 a6 a7 a8 a9 : BitVec 32) :
    FloatOps.sitofp (F := Ideal) .f32
      ((IntOp.ori (IntOp.ori (IntOp.ori (IntOp.ori (IntOp.ori (IntOp.ori (IntOp.ori (IntOp.ori (IntOp.ori
          (IntOp.cmpi .eq c a0) (IntOp.cmpi .eq c a1)) (IntOp.cmpi .eq c a2)) (IntOp.cmpi .eq c a3))
          (IntOp.cmpi .eq c a4)) (IntOp.cmpi .eq c a5)) (IntOp.cmpi .eq c a6)) (IntOp.cmpi .eq c a7))
          (IntOp.cmpi .eq c a8)) (IntOp.cmpi .eq c a9)).setWidth 32)
      = if (a0 = c ∨ a1 = c ∨ a2 = c ∨ a3 = c ∨ a4 = c ∨ a5 = c ∨ a6 = c ∨ a7 = c ∨ a8 = c ∨ a9 = c) then (1 : EReal) else 0 := by
  simp only [IntOp.ori, IntOp.cmpi, BitVec.ofBool_or_ofBool]
  rw [hot_of_bit]
  refine if_congr ?_ rfl rfl
  simp only [Bool.or_eq_true, beq_iff_eq, or_assoc]
  constructor <;> (intro h; rcases h with h | h | h | h | h | h | h | h | h | h) <;> simp [h]

end Cert.MultiHot

end
-- ==== Proof.KernelBlock.lean ====
/-
  WHAT ONE GRID POINT OF THE KERNEL WRITES, entry by entry. At grid point `(i₀, i₁)` the body holds a `[1024, 10]`
  block `x0` of ids and fills a `[1024, 3200]` block: the entry at `(p, q)` is `1` when one of row `p`'s ten ids is
  the word of the column number `3200·i₁ + q`, and `0` otherwise. The column number is the block's column offset
  `i₁·3200` (a word product) plus the lane number `q` (an iota along the columns), and the word of a sum or product
  is the sum or product of the words.
-/
import proofs.«424430_j53566832115799_2_alg».proof.Proof.FrameKernelIdeal
import proofs.«424430_j53566832115799_2_alg».proof.Proof.MultiHot
import Idealize.ShloMosaic.Lib.Pipeline.Value

noncomputable section

namespace Cert.KernelIdeal.Block

open Cert.KernelIdeal Cert.KernelIdeal.Gen Cert.KernelIdeal.GenP Cert.MultiHot
open Idealize.ShloMosaic Idealize.ShloMosaic.ValueIdx

/-- The column ids of the block at grid point `i`: at `(p, q)` the word of `3200·i₁ + q`. -/
theorem colIds_apply (i : grid0.Coords) (p : Fin 1024) (q : Fin 3200) :
    k0_pay2 i (ix2 p q) = BitVec.ofNat 32 ((i 1).val * 3200 + q.val) := by
  unfold k0_pay2
  show IntOp.addi (Scalar.muli (BitVec.ofNat 32 (i 1).val) 3200#32) (BitVec.ofNat 32 (0 * 3200 + q.val)) = _
  show BitVec.ofNat 32 (i 1).val * 3200#32 + BitVec.ofNat 32 (0 * 3200 + q.val) = _
  rw [Nat.zero_mul, Nat.zero_add, BitVec.ofNat_add, BitVec.ofNat_mul]

/-- A column of ids spread over the block's lanes reads, at `(p, q)`, the column at row `p`. -/
theorem spread_apply (v : IVec S1024x1 32) (p : Fin 1024) (q : Fin 3200) :
    broadcastTo S1024x3200 v broadcasts_S1024x1_S1024x3200 (ix2 p q) = v (ix2 p 0) :=
  broadcastTo_apply v broadcasts_S1024x1_S1024x3200 (ix2 p q) (ix2 p 0) fun a => by
    match a with
    | ⟨0, _⟩ => show p.val = if (1024 : Nat) = 1 then 0 else p.val; rw [if_neg (by decide)]
    | ⟨1, _⟩ => show 0 = if (1 : Nat) = 1 then 0 else q.val; rw [if_pos rfl]

/-- Column `k` of the id block, loaded as a `[1024, 1]` vector, reads at row `p` the id `x0[p, k]`. -/
theorem col_apply (x0 : Vec Ideal S1024x10 .i32) (k : Nat) (hk : k < 10) (inb) (p : Fin 1024) :
    View.ld (Val := Elt Ideal) (e' := .i32) x0 (Rect.unit (s := S1024x10) ![0, k] S1024x1.size inb) (ix2 p 0)
      = x0 (ix2 p ⟨k, hk⟩) := by
  show x0 _ = x0 _
  congr 1
  funext a
  apply Fin.ext
  match a with
  | ⟨0, _⟩ => show 0 + 1 * p.val = p.val; omega
  | ⟨1, _⟩ => show k + 1 * 0 = k; omega

/-- THE BLOCK'S ENTRY at `(p, q)`: `1` when one of row `p`'s ids is the column's word, `0` otherwise. -/
theorem stored_apply (i : grid0.Coords) (x0 : Vec Ideal S1024x10 .i32) (p : Fin 1024) (q : Fin 3200) :
    k0_pay1 (F := Ideal) (k0_pay2 i)
        (k0_pay3 (F := Ideal) i (View.ld (Val := Elt Ideal) x0 r0_0) (View.ld (Val := Elt Ideal) x0 r0_1)
          (View.ld (Val := Elt Ideal) x0 r0_2) (View.ld (Val := Elt Ideal) x0 r0_3) (View.ld (Val := Elt Ideal) x0 r0_4)
          (View.ld (Val := Elt Ideal) x0 r0_5) (View.ld (Val := Elt Ideal) x0 r0_6) (View.ld (Val := Elt Ideal) x0 r0_7)
          (View.ld (Val := Elt Ideal) x0 r0_8)) (View.ld (Val := Elt Ideal) x0 r0_9) (ix2 p q)
      = if ∃ k : Fin 10, x0 (ix2 p k) = BitVec.ofNat 32 ((i 1).val * 3200 + q.val) then (1 : EReal) else 0 := by
  unfold k0_pay1 k0_pay3
  simp only [sitofp, extui, ori, cmpi, spread_apply, colIds_apply]
  rw [col_apply x0 0 (by decide), col_apply x0 1 (by decide), col_apply x0 2 (by decide), col_apply x0 3 (by decide),
    col_apply x0 4 (by decide), col_apply x0 5 (by decide), col_apply x0 6 (by decide), col_apply x0 7 (by decide),
    col_apply x0 8 (by decide), col_apply x0 9 (by decide), hot_of_tests]
  exact if_congr (exists_fin10 fun k => x0 (ix2 p k) = BitVec.ofNat 32 ((i 1).val * 3200 + q.val)).symm rfl rfl

end Cert.KernelIdeal.Block

end
-- ==== Proof.KernelValue.lean ====
/-
  THE KERNEL'S RESULT ARRAY IS THE MULTI-HOT ENCODING OF ITS ARGUMENT. The grid is `8 × 10`: point `(i₀, i₁)` reads rows
  `1024·i₀ … 1024·i₀ + 1023` of the id table (all ten columns) and writes the `[1024, 3200]` block of the result at rows
  `1024·i₀ …` and columns `3200·i₁ …`. The entry the point writes at `(p, q)` tests row `p` of its id block against the
  word of `3200·i₁ + q`, which is the encoding's entry at `(1024·i₀ + p, 3200·i₁ + q)`; the eighty blocks tile the
  `[8192, 32000]` array (the block holding `(n, c)` is `(n / 1024, c / 3200)`), so the array ends holding the encoding.
-/
import proofs.«424430_j53566832115799_2_alg».proof.Proof.ValueKernelIdeal
import proofs.«424430_j53566832115799_2_alg».proof.Proof.KernelBlock
import Idealize.ShloMosaic.Lib.Pipeline.Value

noncomputable section

namespace Cert.KernelIdeal.Hand

open Cert.KernelIdeal Cert.KernelIdeal.Gen Cert.KernelIdeal.GenP Cert.KernelIdeal.ValueP Cert.KernelIdeal.Block Cert.MultiHot
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The two index maps over the grid: the id window moves with the result's rows and stays at column block `0`; the
    result's column block is the point's second grid coordinate; the block indices stay in `8 × 10`. -/
theorem index_maps : ∀ t : Fin cfg0.N, win0_0.index t (0 : Fin 2) = win0_1.index t (0 : Fin 2)
    ∧ win0_0.index t (1 : Fin 2) = 0
    ∧ win0_1.index t (1 : Fin 2) = (grid0.coords t 1).val
    ∧ win0_1.index t (0 : Fin 2) ≤ 7 ∧ win0_1.index t (1 : Fin 2) ≤ 9 :=
  (by decide +kernel : ∀ t : Fin grid0.N, _)

/-- Every block of the `8 × 10` tiling is some grid point's. -/
theorem index_onto : ∀ (q0 : Fin 8) (q1 : Fin 10), ∃ t : Fin cfg0.N, win0_1.index t = ![q0.val, q1.val] :=
  (by decide +kernel : ∀ (q0 : Fin 8) (q1 : Fin 10), ∃ t : Fin grid0.N, win0_1.index t = ![q0.val, q1.val])

/-- Over plain vectors: when the id block `x0` is rows `1024·r …` of the table `X`, the entry the body stores at `y` is
    the encoding of `X` at the entry `z` that `y` is in the whole array. -/
theorem stored_is_multiHot (X : IVec ⟨2, ![8192, 10]⟩ 32) (i : grid0.Coords) (x0 : Vec Ideal S1024x10 .i32) (r : Nat)
    (hx : ∀ (p : Fin 1024) (k : Fin 10) (n : Fin 8192), n.val = r * 1024 + p.val → x0 (ix2 p k) = X (ix2 n k))
    (y : S1024x3200.Idx) (z : (⟨2, ![8192, 32000]⟩ : Shape).Idx)
    (hz0 : (z 0).val = r * 1024 + (y 0).val) (hz1 : (z 1).val = (i 1).val * 3200 + (y 1).val) :
    k0_pay1 (F := Ideal) (k0_pay2 i)
        (k0_pay3 (F := Ideal) i (View.ld (Val := Elt Ideal) x0 r0_0) (View.ld (Val := Elt Ideal) x0 r0_1)
          (View.ld (Val := Elt Ideal) x0 r0_2) (View.ld (Val := Elt Ideal) x0 r0_3) (View.ld (Val := Elt Ideal) x0 r0_4)
          (View.ld (Val := Elt Ideal) x0 r0_5) (View.ld (Val := Elt Ideal) x0 r0_6) (View.ld (Val := Elt Ideal) x0 r0_7)
          (View.ld (Val := Elt Ideal) x0 r0_8)) (View.ld (Val := Elt Ideal) x0 r0_9) y
      = multiHot X z := by
  obtain ⟨p, q, rfl⟩ : ∃ (p : Fin 1024) (q : Fin 3200), y = ix2 p q := ⟨y 0, y 1, eq_ix2 y⟩
  obtain ⟨n, c, rfl⟩ : ∃ (n : Fin 8192) (c : Fin 32000), z = ix2 n c := ⟨z 0, z 1, eq_ix2 z⟩
  rw [stored_apply, multiHot_apply]
  have hc : c.val = (i 1).val * 3200 + q.val := hz1
  have iffk : (∃ k : Fin 10, x0 (ix2 p k) = BitVec.ofNat 32 ((i 1).val * 3200 + q.val))
      ↔ ∃ k : Fin 10, X (ix2 n k) = BitVec.ofNat 32 c.val :=
    exists_congr fun k => by rw [hx p k n hz0, hc]
  by_cases h : ∃ k : Fin 10, X (ix2 n k) = BitVec.ofNat 32 c.val
  · rw [if_pos h, if_pos (iffk.mpr h)]
  · rw [if_neg h, if_neg fun h' => h (iffk.mp h')]

/-- WHAT POINT `t` WRITES BACK is block `t` of the encoding of the id table as the region finds it. -/
theorem flushed_eq (c : Dev nD) (t : Fin cfg0.N) :
    (dats m 0 c).flushed 1 t = ((cfg0.win 1).blk t).view.read (Elt Ideal) (multiHot (V m c main_arg0)) := by
  rw [flushed1]
  unfold out0_1
  rw [View.canon_unit_zero zero_offsets]
  obtain ⟨e0, e1, e2, e3, e4⟩ := index_maps t
  funext j
  refine stored_is_multiHot (V m c main_arg0) (grid0.coords t) (iblk m c 0 t) (win0_1.index t (0 : Fin 2)) ?_ j
    (((cfg0.win 1).blk t).view.emb j) ?_ ?_
  · intro p k n hn
    show V m c main_arg0 (((cfg0.win 0).blk t).view.emb (ix2 p k)) = V m c main_arg0 (ix2 n k)
    congr 1
    funext a
    apply Fin.ext
    match a with
    | ⟨0, _⟩ => show win0_0.index t (0 : Fin 2) * 1024 + 1 * p.val = n.val; omega
    | ⟨1, _⟩ => show win0_0.index t (1 : Fin 2) * 10 + 1 * k.val = k.val; omega
  · show win0_1.index t (0 : Fin 2) * 1024 + 1 * (j 0).val = _; omega
  · show win0_1.index t (1 : Fin 2) * 3200 + 1 * (j 1).val = _; omega

/-- An entry of the array is in point `t`'s block iff each coordinate is in the block's range on its axis. -/
theorem mem_block (t : Fin cfg0.N) (i : S8192x32000.Idx) :
    i ∈ ((cfg0.win 1).blk t).view.set ↔ ∀ a : Fin 2, win0_1.index t a * S1024x3200.size a ≤ (i a).val
      ∧ (i a).val < win0_1.index t a * S1024x3200.size a + S1024x3200.size a := by
  show i ∈ ((View.whole main_v0).slice (win0_1.rect t)).set ↔ _
  rw [View.set_slice_whole, Rect.mem_set_unit]
  exact Iff.rfl

/-- The eighty blocks tile the array: entry `(n, c)` is in the block `(n / 1024, c / 3200)`. -/
theorem blocks_cover (i : S8192x32000.Idx) :
    ∃ t : Fin cfg0.N, (cfg0.win 1).flush t = true ∧ i ∈ ((cfg0.win 1).blk t).view.set := by
  have hi0 : (i 0).val < 8192 := (i 0).isLt
  have hi1 : (i 1).val < 32000 := (i 1).isLt
  obtain ⟨t, ht⟩ := index_onto ⟨(i 0).val / 1024, by omega⟩ ⟨(i 1).val / 3200, by omega⟩
  have q0 : win0_1.index t (0 : Fin 2) = (i 0).val / 1024 := congrFun ht 0
  have q1 : win0_1.index t (1 : Fin 2) = (i 1).val / 3200 := congrFun ht 1
  refine ⟨t, flush0_1 t, ?_⟩
  rw [mem_block]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 3200 ≤ (i 1).val ∧ (i 1).val < win0_1.index t (1 : Fin 2) * 3200 + 3200; omega

/-- THE RESULT ARRAY after the run is the encoding of the id table. -/
theorem final (c : Dev nD) :
    (dats m 0 c).arrAt 1 cfg0.N = multiHot (m ((c : Thread nD τ).loc main_arg0)) :=
  (dats m 0 c).arrAt_eq_of_cover 1 (multiHot (V m c main_arg0)) (fun t _ => flushed_eq m c t) blocks_cover

/-- The run, read: the result array at the encoding of the id table, the table unchanged. -/
theorem run : θ_run defs (onTc (τ := τ) (main (F := Ideal))) ⟨m, fun _ => 0, ρ⟩ fun r => ∀ c : Dev nD,
      r.2.mem ((c : Thread nD τ).loc main_v0) = multiHot (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Hand

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.LibPairScatterRows.lean ====
/-
  STABLEHLO'S SCATTER READ AT AN INDEX, for the dimension numbers that a row-wise indexed update of a matrix lowers to.

  `x.at[arange(B)[:, None], idx].add(v)` of a matrix `x : [N, N']` with `idx, v : [B, P]` is a `stablehlo.scatter`
  with an `add` body whose scatter indices are the pairs `[B, P, 2]` (at `(b, p)` the pair `(b, idx[b, p])`), whose
  updates are `[B, P]`, and whose dimension numbers are update_window_dims `[]`, inserted_window_dims `[0, 1]`,
  scatter_dims_to_operand_dims `[0, 1]`, index_vector_dim 2. This file builds that record from the sizes
  (`pairRowsScatterDims`) and reads the operation at an index:

  * update `(b, p)` lands on operand element `(i, i')` exactly when its index pair `(idx[b, p, 0], idx[b, p, 1])`, read
    SIGNED and NOT clamped, is `(i, i')` (`pairRowsScatter_resultIdx`); an update whose pair is outside the operand
    lands nowhere;
  * so, over the extended reals, the accumulating scatter's result element at `(i, i')` is the operand's plus the sum
    over `(b, p)` of the updates `v[b, p]` whose index pair is `(i, i')` (`pairRowsScatterAdd_apply`).
-/
import Idealize.ShloMosaic.PureOps.Ideal
import Idealize.ShloMosaic.Lib.ValueIdx
import proofs.«424430_j53566832115799_2_alg».proof.Proof.LibGatherScatter

noncomputable section

open scoped BigOperators

namespace Idealize.ShloMosaic.GatherScatter

open Idealize.ShloMosaic Idealize.ShloMosaic.ValueIdx

/-! ## Scalars scattered into a matrix by a matrix of index pairs -/

section PairRowsScatter

/-- Those dimension numbers for an operand `[N, N']`, scatter indices `[B, P, 2]` and updates `[B, P]`; their
    conditions `wf` are decided on a program's literal shapes. -/
abbrev pairRowsScatterDims (N N' B P : Nat)
    (wf : ScatterDims.WF ⟨2, ![N, N']⟩ ⟨3, ![B, P, 2]⟩ ⟨2, ![B, P]⟩ [] [0, 1] [0, 1] 2) :
    ScatterDims ⟨2, ![N, N']⟩ ⟨3, ![B, P, 2]⟩ ⟨2, ![B, P]⟩ where
  updateWindowDims := []
  insertedWindowDims := [0, 1]
  scatterDimsToOperandDims := [0, 1]
  indexVectorDim := 2
  wf := wf

variable {N N' B P w : Nat} (wf : ScatterDims.WF ⟨2, ![N, N']⟩ ⟨3, ![B, P, 2]⟩ ⟨2, ![B, P]⟩ [] [0, 1] [0, 1] 2)

/-- Update `(b, p)`'s window starts, on the operand's row axis, at the index `idx[b, p, 0]` read signed. -/
theorem pairRowsScatter_start0 (idx : IVec ⟨3, ![B, P, 2]⟩ w) (b : Fin B) (p : Fin P) :
    (pairRowsScatterDims N N' B P wf).start (ix2 b p) idx 0 = (idx (ix3 b p 0)).toInt := by
  have hmem : (0 : Fin 2) ∈ (pairRowsScatterDims N N' B P wf).scatterDimsToOperandDims :=
    (by decide : (0 : Fin 2) ∈ ([0, 1] : List (Fin 2)))
  have hsi : (pairRowsScatterDims N N' B P wf).siIdx (ix2 b p)
      ⟨List.idxOf (0 : Fin 2) (pairRowsScatterDims N N' B P wf).scatterDimsToOperandDims,
        List.idxOf_lt_length_iff.2 hmem⟩ = ix3 b p 0 := by
    funext a; refine Fin.ext ?_
    match a with
    | ⟨0, _⟩ => rfl
    | ⟨1, _⟩ => rfl
    | ⟨2, _⟩ => rfl
  unfold ScatterDims.start
  rw [dif_pos hmem, hsi]

/-- Update `(b, p)`'s window starts, on the operand's column axis, at the index `idx[b, p, 1]` read signed. -/
theorem pairRowsScatter_start1 (idx : IVec ⟨3, ![B, P, 2]⟩ w) (b : Fin B) (p : Fin P) :
    (pairRowsScatterDims N N' B P wf).start (ix2 b p) idx 1 = (idx (ix3 b p 1)).toInt := by
  have hmem : (1 : Fin 2) ∈ (pairRowsScatterDims N N' B P wf).scatterDimsToOperandDims :=
    (by decide : (1 : Fin 2) ∈ ([0, 1] : List (Fin 2)))
  have hsi : (pairRowsScatterDims N N' B P wf).siIdx (ix2 b p)
      ⟨List.idxOf (1 : Fin 2) (pairRowsScatterDims N N' B P wf).scatterDimsToOperandDims,
        List.idxOf_lt_length_iff.2 hmem⟩ = ix3 b p 1 := by
    funext a; refine Fin.ext ?_
    match a with
    | ⟨0, _⟩ => rfl
    | ⟨1, _⟩ => rfl
    | ⟨2, _⟩ => rfl
  unfold ScatterDims.start
  rw [dif_pos hmem, hsi]

/-- The updates are scalars: the window coordinate is `0` on both axes. -/
theorem pairRowsScatter_window (j : (⟨2, ![B, P]⟩ : Shape).Idx) (a : Fin (⟨2, ![N, N']⟩ : Shape).rank) :
    (pairRowsScatterDims N N' B P wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `(b, p)` LANDS ON ELEMENT `(i, i')` exactly when its index pair `(idx[b, p, 0], idx[b, p, 1])`, read
    signed, is `(i, i')`. -/
theorem pairRowsScatter_resultIdx (idx : IVec ⟨3, ![B, P, 2]⟩ w) (b : Fin B) (p : Fin P) (i : Fin N) (i' : Fin N') :
    (pairRowsScatterDims N N' B P wf).resultIdx? (ix2 b p) idx = some (ix2 i i') ↔
      ((idx (ix3 b p 0)).toInt = (i.val : Int) ∧ (idx (ix3 b p 1)).toInt = (i'.val : Int)) := by
  rw [resultIdx?_eq_some_iff]
  constructor
  · intro H
    have h0 := H 0
    have h1 := H 1
    rw [pairRowsScatter_start0, pairRowsScatter_window, Nat.cast_zero, add_zero] at h0
    rw [pairRowsScatter_start1, pairRowsScatter_window, Nat.cast_zero, add_zero] at h1
    exact ⟨h0, h1⟩
  · intro H a
    match a with
    | ⟨0, _⟩ =>
      show (pairRowsScatterDims N N' B P wf).start (ix2 b p) idx 0
        + ((pairRowsScatterDims N N' B P wf).window (ix2 b p) 0 : Int) = _
      rw [pairRowsScatter_start0, pairRowsScatter_window, Nat.cast_zero, add_zero]
      exact H.1
    | ⟨1, _⟩ =>
      show (pairRowsScatterDims N N' B P wf).start (ix2 b p) idx 1
        + ((pairRowsScatterDims N N' B P wf).window (ix2 b p) 1 : Int) = _
      rw [pairRowsScatter_start1, pairRowsScatter_window, Nat.cast_zero, add_zero]
      exact H.2

end PairRowsScatter

/-! ## The accumulating scatter over the extended reals -/

section Sums
variable {φ : FTy}

/-- SCALARS ACCUMULATED INTO A MATRIX BY A MATRIX OF INDEX PAIRS, read at `(i, i')`: the operand's element plus the
    sum over `(b, p)` of the updates whose index pair `(idx[b, p, 0], idx[b, p, 1])`, read signed, is `(i, i')`. -/
theorem pairRowsScatterAdd_apply {N N' B P w : Nat}
    (wf : ScatterDims.WF ⟨2, ![N, N']⟩ ⟨3, ![B, P, 2]⟩ ⟨2, ![B, P]⟩ [] [0, 1] [0, 1] 2)
    (x : (⟨2, ![N, N']⟩ : Shape).Idx → EReal) (idx : IVec ⟨3, ![B, P, 2]⟩ w)
    (upd : (⟨2, ![B, P]⟩ : Shape).Idx → EReal) (i : Fin N) (i' : Fin N') :
    Host.scatterAdd (F := Ideal) (φ := φ) (pairRowsScatterDims N N' B P wf) x idx upd (ix2 i i')
      = x (ix2 i i') + ∑ b : Fin B, ∑ p : Fin P,
          if (idx (ix3 b p 0)).toInt = (i.val : Int) ∧ (idx (ix3 b p 1)).toInt = (i'.val : Int)
            then upd (ix2 b p) else 0 := by
  simp only [Host.scatterAdd, Ideal.hostScatterAdd_def, Ideal.hostScatterAdd]
  congr 1
  rw [Finset.sum_filter, sum_idx2]
  refine Finset.sum_congr rfl fun b _ => Finset.sum_congr rfl fun p _ => ?_
  exact if_congr (pairRowsScatter_resultIdx wf idx b p i i') rfl rfl

end Sums

end Idealize.ShloMosaic.GatherScatter

end
-- ==== Proof.LibScatterSet.lean ====
/-
  STABLEHLO'S SCATTER WITH A `SET` BODY, read at an index, for the dimension numbers that writing a block, a row
  segment or a row into a matrix at ONE literal start index lowers to (`x.at[:, o:o+K].set(v)`, `x.at[r, o:o+K].set(v)`,
  `x.at[o:o+K, :].set(v)`, `x.at[r, :].set(v)`).

  `Host.scatter` folds over the update indices; with a body that returns the update, an operand element on which
  exactly the updates of one value land ends at that value, and one on which no update lands keeps the operand's
  (`scatter_set_hit`, `scatter_set_miss`). For one start index every update index lands on its own operand element, so
  the four shapes below read as: inside the written window the update's element, outside it the operand's.
-/
import Idealize.ShloMosaic.PureOps.Ideal
import Idealize.ShloMosaic.Lib.ValueIdx
import proofs.«424430_j53566832115799_2_alg».proof.Proof.LibGatherScatter

noncomputable section

namespace Idealize.ShloMosaic.ScatterSet

open Idealize.ShloMosaic Idealize.ShloMosaic.ValueIdx Idealize.ShloMosaic.GatherScatter

/-! ## The fold, in general -/

section General
variable {s si u : Shape} {α : Type} {w : Nat}

/-- One step of the fold: update number `n` replaces the element it lands on, if any, by its value. -/
private def setStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The scatter with a `set` body is the fold of that step over the update numbers. -/
private theorem scatter_eq_foldl (d : ScatterDims s si u) (x : s.Idx → α) (idx : IVec si w) (upd : u.Idx → α) :
    Host.scatter d (fun _ b => b) x idx upd = (List.finRange u.numel).foldl (setStep d idx upd) x := rfl

/-- A step whose update lands on `i` leaves the update's value at `i`. -/
private theorem setStep_of_some (d : ScatterDims s si u) (idx : IVec si w) (upd : u.Idx → α) (r : s.Idx → α)
    (n : Fin u.numel) (i : s.Idx) (h : d.resultIdx? (u.rowMajor.symm n) idx = some i) :
    setStep d idx upd r n i = upd (u.rowMajor.symm n) := by
  unfold setStep
  rw [h]
  exact if_pos rfl

/-- A step whose update does not land on `i` leaves the element at `i` as it was. -/
private theorem setStep_of_ne (d : ScatterDims s si u) (idx : IVec si w) (upd : u.Idx → α) (r : s.Idx → α)
    (n : Fin u.numel) (i : s.Idx) (h : d.resultIdx? (u.rowMajor.symm n) idx ≠ some i) :
    setStep d idx upd r n i = r i := by
  unfold setStep
  cases hres : d.resultIdx? (u.rowMajor.symm n) idx with
  | none => rfl
  | some i' =>
    have hne : i ≠ i' := fun e => h (by rw [hres, e])
    exact if_neg hne

/-- Folding over update numbers none of which lands on `i` leaves the element at `i` as it was. -/
private theorem foldl_miss (d : ScatterDims s si u) (idx : IVec si w) (upd : u.Idx → α) (i : s.Idx)
    (L : List (Fin u.numel)) (r : s.Idx → α)
    (hnone : ∀ n ∈ L, d.resultIdx? (u.rowMajor.symm n) idx ≠ some i) :
    L.foldl (setStep d idx upd) r i = r i := by
  induction L generalizing r with
  | nil => rfl
  | cons n L ih =>
    rw [List.foldl_cons, ih _ fun m hm => hnone m (List.mem_cons_of_mem _ hm),
      setStep_of_ne d idx upd r n i (hnone n List.mem_cons_self)]

/-- Folding over update numbers one of which lands on `i`, all those that do carrying the value `v`, leaves `v`
    at `i`: after the last of them no later step touches `i`. -/
private theorem foldl_hit (d : ScatterDims s si u) (idx : IVec si w) (upd : u.Idx → α) (i : s.Idx) (v : α)
    (L : List (Fin u.numel)) (r : s.Idx → α)
    (hex : ∃ n ∈ L, d.resultIdx? (u.rowMajor.symm n) idx = some i)
    (hall : ∀ n ∈ L, d.resultIdx? (u.rowMajor.symm n) idx = some i → upd (u.rowMajor.symm n) = v) :
    L.foldl (setStep d idx upd) r i = v := by
  induction L generalizing r with
  | nil => obtain ⟨n, hn, _⟩ := hex; cases hn
  | cons n L ih =>
    rw [List.foldl_cons]
    by_cases hL : ∃ m ∈ L, d.resultIdx? (u.rowMajor.symm m) idx = some i
    · exact ih _ hL fun m hm => hall m (List.mem_cons_of_mem _ hm)
    · have hnone : ∀ m ∈ L, d.resultIdx? (u.rowMajor.symm m) idx ≠ some i := fun m hm e => hL ⟨m, hm, e⟩
      have hn : d.resultIdx? (u.rowMajor.symm n) idx = some i := by
        obtain ⟨m, hm, e⟩ := hex
        rcases List.mem_cons.mp hm with rfl | hm'
        · exact e
        · exact absurd e (hnone m hm')
      rw [foldl_miss d idx upd i L _ hnone, setStep_of_some d idx upd r n i hn]
      exact hall n List.mem_cons_self hn

/-- HIT: if update index `j` lands on `i` and every update index landing on `i` carries `j`'s value, the result at
    `i` is that value. -/
theorem scatter_set_hit (d : ScatterDims s si u) (x : s.Idx → α) (idx : IVec si w) (upd : u.Idx → α) (i : s.Idx)
    (j : u.Idx) (hj : d.resultIdx? j idx = some i)
    (hall : ∀ j', d.resultIdx? j' idx = some i → upd j' = upd j) :
    Host.scatter d (fun _ b => b) x idx upd i = upd j := by
  rw [scatter_eq_foldl]
  refine foldl_hit d idx upd i (upd j) _ x ⟨u.rowMajor j, List.mem_finRange _, ?_⟩ fun n _ hn => hall _ hn
  rw [Equiv.symm_apply_apply]
  exact hj

/-- MISS: if no update index lands on `i`, the result at `i` is the operand's element. -/
theorem scatter_set_miss (d : ScatterDims s si u) (x : s.Idx → α) (idx : IVec si w) (upd : u.Idx → α) (i : s.Idx)
    (hnone : ∀ j, d.resultIdx? j idx ≠ some i) :
    Host.scatter d (fun _ b => b) x idx upd i = x i := by
  rw [scatter_eq_foldl]
  exact foldl_miss d idx upd i _ x fun n _ => hnone _

end General

/-! ## A block of columns: `x.at[:, o:o+K].set(v)`

Operand `[R, C]`, scatter indices `[1]` (the start column), updates `[R, K]`: update_window_dims `[0, 1]`,
inserted_window_dims `[]`, scatter_dims_to_operand_dims `[1]`, index_vector_dim 0. -/

abbrev colBlockDims (R C K : Nat) (wf : ScatterDims.WF ⟨2, ![R, C]⟩ ⟨1, ![1]⟩ ⟨2, ![R, K]⟩ [0, 1] [] [1] 0) :
    ScatterDims ⟨2, ![R, C]⟩ ⟨1, ![1]⟩ ⟨2, ![R, K]⟩ where
  updateWindowDims := [0, 1]
  insertedWindowDims := []
  scatterDimsToOperandDims := [1]
  indexVectorDim := 0
  wf := wf

section ColBlock
variable {R C K w : Nat} (wf : ScatterDims.WF ⟨2, ![R, C]⟩ ⟨1, ![1]⟩ ⟨2, ![R, K]⟩ [0, 1] [] [1] 0)

/-- The scatter index names no row: on the operand's row axis the window starts at `0`. -/
private theorem colBlock_start0 (idx : IVec ⟨1, ![1]⟩ w) (j : (⟨2, ![R, K]⟩ : Shape).Idx) :
    (colBlockDims R C K wf).start j idx 0 = 0 := by
  unfold ScatterDims.start
  rw [dif_neg (by decide : (0 : Fin 2) ∉ ([1] : List (Fin 2)))]

/-- On the operand's column axis the window starts at the scatter index, read signed. -/
private theorem colBlock_start1 (idx : IVec ⟨1, ![1]⟩ w) (j : (⟨2, ![R, K]⟩ : Shape).Idx) :
    (colBlockDims R C K wf).start j idx 1 = (idx (ix1 0)).toInt := by
  have hmem : (1 : Fin 2) ∈ (colBlockDims R C K wf).scatterDimsToOperandDims := List.mem_singleton.mpr rfl
  have hsi : (colBlockDims R C K wf).siIdx j ⟨List.idxOf (1 : Fin 2) (colBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The window coordinate on the operand's row axis is the update's row. -/
private theorem colBlock_window0 (a : Fin R) (b : Fin K) : (colBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem colBlock_window1 (a : Fin R) (b : Fin K) : (colBlockDims R C K wf).window (ix2 a b) 1 = b.val := by
  unfold ScatterDims.window
  rw [dif_pos (mem_kept (by decide : (1 : Fin 2) ∉ ([] : List (Fin 2))))]
  rfl

/-- Update `(a, b)` lands on element `(r, c)` exactly when `a` is `r` and the start column plus `b` is `c`. -/
private theorem colBlock_resultIdx (idx : IVec ⟨1, ![1]⟩ w) (o : Nat) (ho : (idx (ix1 0)).toInt = (o : Int))
    (a : Fin R) (b : Fin K) (r : Fin R) (c : Fin C) :
    (colBlockDims R C K wf).resultIdx? (ix2 a b) idx = some (ix2 r c) ↔ (a = r ∧ o + b.val = c.val) := by
  rw [resultIdx?_eq_some_iff]
  constructor
  · intro H
    have h0 := H 0
    have h1 := H 1
    rw [colBlock_start0, colBlock_window0, zero_add] at h0
    rw [colBlock_start1, colBlock_window1, ho] at h1
    have h0' : (a.val : Int) = (r.val : Int) := h0
    have h1' : (o : Int) + (b.val : Int) = (c.val : Int) := h1
    exact ⟨Fin.ext (by omega), by omega⟩
  · rintro ⟨rfl, H⟩ e
    match e with
    | ⟨0, _⟩ =>
      show (colBlockDims R C K wf).start (ix2 a b) idx 0 + ((colBlockDims R C K wf).window (ix2 a b) 0 : Int) = (a.val : Int)
      rw [colBlock_start0, colBlock_window0, zero_add]
    | ⟨1, _⟩ =>
      show (colBlockDims R C K wf).start (ix2 a b) idx 1 + ((colBlockDims R C K wf).window (ix2 a b) 1 : Int) = (c.val : Int)
      rw [colBlock_start1, colBlock_window1, ho]
      omega

end ColBlock

/-- Columns `o … o+K−1` hold the update, the others the operand. -/
theorem colBlockSet_apply {α : Type} {R C K w : Nat} (wf : ScatterDims.WF ⟨2, ![R, C]⟩ ⟨1, ![1]⟩ ⟨2, ![R, K]⟩ [0, 1] [] [1] 0)
    (x : (⟨2, ![R, C]⟩ : Shape).Idx → α) (idx : IVec ⟨1, ![1]⟩ w) (upd : (⟨2, ![R, K]⟩ : Shape).Idx → α)
    (o : Nat) (ho : (idx (ix1 0)).toInt = (o : Int)) (r : Fin R) (c : Fin C) :
    Host.scatter (colBlockDims R C K wf) (fun _ b => b) x idx upd (ix2 r c)
      = if h : o ≤ c.val ∧ c.val < o + K then upd (ix2 r ⟨c.val - o, by omega⟩) else x (ix2 r c) := by
  by_cases h : o ≤ c.val ∧ c.val < o + K
  · rw [dif_pos h]
    refine scatter_set_hit _ x idx upd _ (ix2 r ⟨c.val - o, by omega⟩) ?_ ?_
    · exact (colBlock_resultIdx wf idx o ho _ _ _ _).mpr ⟨rfl, by show o + (c.val - o) = c.val; omega⟩
    · intro j' hj'
      obtain ⟨a, b, rfl⟩ : ∃ (a : Fin R) (b : Fin K), j' = ix2 a b := ⟨j' 0, j' 1, eq_ix2 j'⟩
      obtain ⟨rfl, hb⟩ := (colBlock_resultIdx wf idx o ho _ _ _ _).mp hj'
      have hbe : b = ⟨c.val - o, by omega⟩ := Fin.ext (by show b.val = c.val - o; omega)
      rw [hbe]
  · rw [dif_neg h]
    refine scatter_set_miss _ x idx upd _ fun j' hj' => h ?_
    obtain ⟨a, b, rfl⟩ : ∃ (a : Fin R) (b : Fin K), j' = ix2 a b := ⟨j' 0, j' 1, eq_ix2 j'⟩
    obtain ⟨_, hb⟩ := (colBlock_resultIdx wf idx o ho _ _ _ _).mp hj'
    have := b.isLt
    omega

/-! ## A block of rows: `x.at[o:o+K, :].set(v)`

Operand `[R, C]`, scatter indices `[1]` (the start row), updates `[K, C]`: update_window_dims `[0, 1]`,
inserted_window_dims `[]`, scatter_dims_to_operand_dims `[0]`, index_vector_dim 0. -/

abbrev rowBlockDims (R C K : Nat) (wf : ScatterDims.WF ⟨2, ![R, C]⟩ ⟨1, ![1]⟩ ⟨2, ![K, C]⟩ [0, 1] [] [0] 0) :
    ScatterDims ⟨2, ![R, C]⟩ ⟨1, ![1]⟩ ⟨2, ![K, C]⟩ where
  updateWindowDims := [0, 1]
  insertedWindowDims := []
  scatterDimsToOperandDims := [0]
  indexVectorDim := 0
  wf := wf

section RowBlock
variable {R C K w : Nat} (wf : ScatterDims.WF ⟨2, ![R, C]⟩ ⟨1, ![1]⟩ ⟨2, ![K, C]⟩ [0, 1] [] [0] 0)

/-- On the operand's row axis the window starts at the scatter index, read signed. -/
private theorem rowBlock_start0 (idx : IVec ⟨1, ![1]⟩ w) (j : (⟨2, ![K, C]⟩ : Shape).Idx) :
    (rowBlockDims R C K wf).start j idx 0 = (idx (ix1 0)).toInt := by
  have hmem : (0 : Fin 2) ∈ (rowBlockDims R C K wf).scatterDimsToOperandDims := List.mem_singleton.mpr rfl
  have hsi : (rowBlockDims R C K wf).siIdx j ⟨List.idxOf (0 : Fin 2) (rowBlockDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem rowBlock_start1 (idx : IVec ⟨1, ![1]⟩ w) (j : (⟨2, ![K, C]⟩ : Shape).Idx) :
    (rowBlockDims R C K wf).start j idx 1 = 0 := by
  unfold ScatterDims.start
  rw [dif_neg (by decide : (1 : Fin 2) ∉ ([0] : List (Fin 2)))]

/-- The window coordinate on the operand's row axis is the update's row. -/
private theorem rowBlock_window0 (a : Fin K) (b : Fin C) : (rowBlockDims R C K wf).window (ix2 a b) 0 = a.val := by
  unfold ScatterDims.window
  rw [dif_pos (mem_kept (by decide : (0 : Fin 2) ∉ ([] : List (Fin 2))))]
  rfl

/-- The window coordinate on the operand's column axis is the update's column. -/
private theorem rowBlock_window1 (a : Fin K) (b : Fin C) : (rowBlockDims R C K wf).window (ix2 a b) 1 = b.val := by
  unfold ScatterDims.window
  rw [dif_pos (mem_kept (by decide : (1 : Fin 2) ∉ ([] : List (Fin 2))))]
  rfl

/-- Update `(a, b)` lands on element `(r, c)` exactly when the start row plus `a` is `r` and `b` is `c`. -/
private theorem rowBlock_resultIdx (idx : IVec ⟨1, ![1]⟩ w) (o : Nat) (ho : (idx (ix1 0)).toInt = (o : Int))
    (a : Fin K) (b : Fin C) (r : Fin R) (c : Fin C) :
    (rowBlockDims R C K wf).resultIdx? (ix2 a b) idx = some (ix2 r c) ↔ (o + a.val = r.val ∧ b = c) := by
  rw [resultIdx?_eq_some_iff]
  constructor
  · intro H
    have h0 := H 0
    have h1 := H 1
    rw [rowBlock_start0, rowBlock_window0, ho] at h0
    rw [rowBlock_start1, rowBlock_window1, zero_add] at h1
    have h0' : (o : Int) + (a.val : Int) = (r.val : Int) := h0
    have h1' : (b.val : Int) = (c.val : Int) := h1
    exact ⟨by omega, Fin.ext (by omega)⟩
  · rintro ⟨H, rfl⟩ e
    match e with
    | ⟨0, _⟩ =>
      show (rowBlockDims R C K wf).start (ix2 a b) idx 0 + ((rowBlockDims R C K wf).window (ix2 a b) 0 : Int) = (r.val : Int)
      rw [rowBlock_start0, rowBlock_window0, ho]
      omega
    | ⟨1, _⟩ =>
      show (rowBlockDims R C K wf).start (ix2 a b) idx 1 + ((rowBlockDims R C K wf).window (ix2 a b) 1 : Int) = (b.val : Int)
      rw [rowBlock_start1, rowBlock_window1, zero_add]

end RowBlock

/-- Rows `o … o+K−1` hold the update, the others the operand. -/
theorem rowBlockSet_apply {α : Type} {R C K w : Nat} (wf : ScatterDims.WF ⟨2, ![R, C]⟩ ⟨1, ![1]⟩ ⟨2, ![K, C]⟩ [0, 1] [] [0] 0)
    (x : (⟨2, ![R, C]⟩ : Shape).Idx → α) (idx : IVec ⟨1, ![1]⟩ w) (upd : (⟨2, ![K, C]⟩ : Shape).Idx → α)
    (o : Nat) (ho : (idx (ix1 0)).toInt = (o : Int)) (r : Fin R) (c : Fin C) :
    Host.scatter (rowBlockDims R C K wf) (fun _ b => b) x idx upd (ix2 r c)
      = if h : o ≤ r.val ∧ r.val < o + K then upd (ix2 ⟨r.val - o, by omega⟩ c) else x (ix2 r c) := by
  by_cases h : o ≤ r.val ∧ r.val < o + K
  · rw [dif_pos h]
    refine scatter_set_hit _ x idx upd _ (ix2 ⟨r.val - o, by omega⟩ c) ?_ ?_
    · exact (rowBlock_resultIdx wf idx o ho _ _ _ _).mpr ⟨by show o + (r.val - o) = r.val; omega, rfl⟩
    · intro j' hj'
      obtain ⟨a, b, rfl⟩ : ∃ (a : Fin K) (b : Fin C), j' = ix2 a b := ⟨j' 0, j' 1, eq_ix2 j'⟩
      obtain ⟨ha, rfl⟩ := (rowBlock_resultIdx wf idx o ho _ _ _ _).mp hj'
      have hae : a = ⟨r.val - o, by omega⟩ := Fin.ext (by show a.val = r.val - o; omega)
      rw [hae]
  · rw [dif_neg h]
    refine scatter_set_miss _ x idx upd _ fun j' hj' => h ?_
    obtain ⟨a, b, rfl⟩ : ∃ (a : Fin K) (b : Fin C), j' = ix2 a b := ⟨j' 0, j' 1, eq_ix2 j'⟩
    obtain ⟨ha, _⟩ := (rowBlock_resultIdx wf idx o ho _ _ _ _).mp hj'
    have := a.isLt
    omega

/-! ## One whole row: `x.at[o, :].set(v)`

Operand `[R, C]`, scatter indices `[1]` (the row), updates `[C]`: update_window_dims `[0]`, inserted_window_dims
`[0]`, scatter_dims_to_operand_dims `[0]`, index_vector_dim 0. -/

abbrev oneRowDims (R C : Nat) (wf : ScatterDims.WF ⟨2, ![R, C]⟩ ⟨1, ![1]⟩ ⟨1, ![C]⟩ [0] [0] [0] 0) :
    ScatterDims ⟨2, ![R, C]⟩ ⟨1, ![1]⟩ ⟨1, ![C]⟩ where
  updateWindowDims := [0]
  insertedWindowDims := [0]
  scatterDimsToOperandDims := [0]
  indexVectorDim := 0
  wf := wf

section OneRow
variable {R C w : Nat} (wf : ScatterDims.WF ⟨2, ![R, C]⟩ ⟨1, ![1]⟩ ⟨1, ![C]⟩ [0] [0] [0] 0)

/-- On the operand's row axis the window starts at the scatter index, read signed. -/
private theorem oneRow_start0 (idx : IVec ⟨1, ![1]⟩ w) (j : (⟨1, ![C]⟩ : Shape).Idx) :
    (oneRowDims R C wf).start j idx 0 = (idx (ix1 0)).toInt := by
  have hmem : (0 : Fin 2) ∈ (oneRowDims R C wf).scatterDimsToOperandDims := List.mem_singleton.mpr rfl
  have hsi : (oneRowDims R C wf).siIdx j ⟨List.idxOf (0 : Fin 2) (oneRowDims R C wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- The scatter index names no column: on the operand's column axis the window starts at `0`. -/
private theorem oneRow_start1 (idx : IVec ⟨1, ![1]⟩ w) (j : (⟨1, ![C]⟩ : Shape).Idx) :
    (oneRowDims R C wf).start j idx 1 = 0 := by
  unfold ScatterDims.start
  rw [dif_neg (by decide : (1 : Fin 2) ∉ ([0] : List (Fin 2)))]

/-- The row axis is inserted: the window coordinate on it is `0`. -/
private theorem oneRow_window0 (j : (⟨1, ![C]⟩ : Shape).Idx) : (oneRowDims R C wf).window j 0 = 0 := by
  unfold ScatterDims.window
  rw [dif_neg (not_mem_kept (List.mem_singleton.mpr rfl))]

/-- The window coordinate on the operand's column axis is the update's coordinate. -/
private theorem oneRow_window1 (b : Fin C) : (oneRowDims R C wf).window (ix1 b) 1 = b.val := by
  unfold ScatterDims.window
  rw [dif_pos (mem_kept (by decide : (1 : Fin 2) ∉ ([0] : List (Fin 2))))]
  rfl

/-- Update `b` lands on element `(r, c)` exactly when the scatter index is `r` and `b` is `c`. -/
private theorem oneRow_resultIdx (idx : IVec ⟨1, ![1]⟩ w) (o : Nat) (ho : (idx (ix1 0)).toInt = (o : Int))
    (b : Fin C) (r : Fin R) (c : Fin C) :
    (oneRowDims R C wf).resultIdx? (ix1 b) idx = some (ix2 r c) ↔ (r.val = o ∧ b = c) := by
  rw [resultIdx?_eq_some_iff]
  constructor
  · intro H
    have h0 := H 0
    have h1 := H 1
    rw [oneRow_start0, oneRow_window0, ho, Nat.cast_zero, add_zero] at h0
    rw [oneRow_start1, oneRow_window1, zero_add] at h1
    have h0' : (o : Int) = (r.val : Int) := h0
    have h1' : (b.val : Int) = (c.val : Int) := h1
    exact ⟨by omega, Fin.ext (by omega)⟩
  · rintro ⟨H, rfl⟩ e
    match e with
    | ⟨0, _⟩ =>
      show (oneRowDims R C wf).start (ix1 b) idx 0 + ((oneRowDims R C wf).window (ix1 b) 0 : Int) = (r.val : Int)
      rw [oneRow_start0, oneRow_window0, ho, Nat.cast_zero, add_zero]
      omega
    | ⟨1, _⟩ =>
      show (oneRowDims R C wf).start (ix1 b) idx 1 + ((oneRowDims R C wf).window (ix1 b) 1 : Int) = (b.val : Int)
      rw [oneRow_start1, oneRow_window1, zero_add]

end OneRow

/-- Row `o` holds the update, the others the operand. -/
theorem oneRowSet_apply {α : Type} {R C w : Nat} (wf : ScatterDims.WF ⟨2, ![R, C]⟩ ⟨1, ![1]⟩ ⟨1, ![C]⟩ [0] [0] [0] 0)
    (x : (⟨2, ![R, C]⟩ : Shape).Idx → α) (idx : IVec ⟨1, ![1]⟩ w) (upd : (⟨1, ![C]⟩ : Shape).Idx → α)
    (o : Nat) (ho : (idx (ix1 0)).toInt = (o : Int)) (r : Fin R) (c : Fin C) :
    Host.scatter (oneRowDims R C wf) (fun _ b => b) x idx upd (ix2 r c)
      = if r.val = o then upd (ix1 c) else x (ix2 r c) := by
  by_cases h : r.val = o
  · rw [if_pos h]
    refine scatter_set_hit _ x idx upd _ (ix1 c) ?_ ?_
    · exact (oneRow_resultIdx wf idx o ho _ _ _).mpr ⟨h, rfl⟩
    · intro j' hj'
      obtain ⟨b, rfl⟩ : ∃ b : Fin C, j' = ix1 b := ⟨j' 0, eq_ix1 j'⟩
      obtain ⟨_, rfl⟩ := (oneRow_resultIdx wf idx o ho _ _ _).mp hj'
      rfl
  · rw [if_neg h]
    refine scatter_set_miss _ x idx upd _ fun j' hj' => h ?_
    obtain ⟨b, rfl⟩ : ∃ b : Fin C, j' = ix1 b := ⟨j' 0, eq_ix1 j'⟩
    exact ((oneRow_resultIdx wf idx o ho _ _ _).mp hj').1

/-! ## A segment of one row: `x.at[r₀, o:o+K].set(v)`

Operand `[R, C]`, scatter indices `[2]` (the row and the start column), updates `[K]`: update_window_dims `[0]`,
inserted_window_dims `[0]`, scatter_dims_to_operand_dims `[0, 1]`, index_vector_dim 0. -/

abbrev rowSegDims (R C K : Nat) (wf : ScatterDims.WF ⟨2, ![R, C]⟩ ⟨1, ![2]⟩ ⟨1, ![K]⟩ [0] [0] [0, 1] 0) :
    ScatterDims ⟨2, ![R, C]⟩ ⟨1, ![2]⟩ ⟨1, ![K]⟩ where
  updateWindowDims := [0]
  insertedWindowDims := [0]
  scatterDimsToOperandDims := [0, 1]
  indexVectorDim := 0
  wf := wf

section RowSeg
variable {R C K w : Nat} (wf : ScatterDims.WF ⟨2, ![R, C]⟩ ⟨1, ![2]⟩ ⟨1, ![K]⟩ [0] [0] [0, 1] 0)

/-- On the operand's row axis the window starts at the first scatter index, read signed. -/
private theorem rowSeg_start0 (idx : IVec ⟨1, ![2]⟩ w) (j : (⟨1, ![K]⟩ : Shape).Idx) :
    (rowSegDims R C K wf).start j idx 0 = (idx (ix1 0)).toInt := by
  have hmem : (0 : Fin 2) ∈ (rowSegDims R C K wf).scatterDimsToOperandDims :=
    (by decide : (0 : Fin 2) ∈ ([0, 1] : List (Fin 2)))
  have hsi : (rowSegDims R C K wf).siIdx j ⟨List.idxOf (0 : Fin 2) (rowSegDims R C K wf).scatterDimsToOperandDims,
      List.idxOf_lt_length_iff.2 hmem⟩ = ix1 0 := by
    funext b; refine Fin.ext ?_
    match b with
    | ⟨0, _⟩ => rfl
  unfold ScatterDims.start
  rw [dif_pos hmem, hsi]

/-- On the operand's column axis the window starts at the second scatter index, read signed. -/
private theorem rowSeg_start1 (idx : IVec ⟨1, ![2]⟩ w) (j : (⟨1, ![K]⟩ : Shape).Idx) :
    (rowSegDims R C K wf).start j idx 1 = (idx (ix1 1)).toInt := by
  have hmem : (1 : Fin 2) ∈ (rowSegDims R C K wf).scatterDimsToOperandDims :=
    (by decide : (1 : Fin 2) ∈ ([0, 1] : List (Fin 2)))
  have hsi : (rowSegDims R C K wf).siIdx j ⟨List.idxOf (1 : Fin 2) (rowSegDims R C K wf).scatterDimsToOperandDims,
      List.idxOf_lt_length_iff.2 hmem⟩ = ix1 1 := by
    funext b; refine Fin.ext ?_
    match b with
    | ⟨0, _⟩ => rfl
  unfold ScatterDims.start
  rw [dif_pos hmem, hsi]

/-- The row axis is inserted: the window coordinate on it is `0`. -/
private theorem rowSeg_window0 (j : (⟨1, ![K]⟩ : Shape).Idx) : (rowSegDims R C K wf).window j 0 = 0 := by
  unfold ScatterDims.window
  rw [dif_neg (not_mem_kept (List.mem_singleton.mpr rfl))]

/-- The window coordinate on the operand's column axis is the update's coordinate. -/
private theorem rowSeg_window1 (b : Fin K) : (rowSegDims R C K wf).window (ix1 b) 1 = b.val := by
  unfold ScatterDims.window
  rw [dif_pos (mem_kept (by decide : (1 : Fin 2) ∉ ([0] : List (Fin 2))))]
  rfl

/-- Update `b` lands on element `(r, c)` exactly when the first scatter index is `r` and the second plus `b` is
    `c`. -/
private theorem rowSeg_resultIdx (idx : IVec ⟨1, ![2]⟩ w) (r₀ o : Nat) (hr : (idx (ix1 0)).toInt = (r₀ : Int))
    (ho : (idx (ix1 1)).toInt = (o : Int)) (b : Fin K) (r : Fin R) (c : Fin C) :
    (rowSegDims R C K wf).resultIdx? (ix1 b) idx = some (ix2 r c) ↔ (r.val = r₀ ∧ o + b.val = c.val) := by
  rw [resultIdx?_eq_some_iff]
  constructor
  · intro H
    have h0 := H 0
    have h1 := H 1
    rw [rowSeg_start0, rowSeg_window0, hr, Nat.cast_zero, add_zero] at h0
    rw [rowSeg_start1, rowSeg_window1, ho] at h1
    have h0' : (r₀ : Int) = (r.val : Int) := h0
    have h1' : (o : Int) + (b.val : Int) = (c.val : Int) := h1
    exact ⟨by omega, by omega⟩
  · rintro ⟨H0, H1⟩ e
    match e with
    | ⟨0, _⟩ =>
      show (rowSegDims R C K wf).start (ix1 b) idx 0 + ((rowSegDims R C K wf).window (ix1 b) 0 : Int) = (r.val : Int)
      rw [rowSeg_start0, rowSeg_window0, hr, Nat.cast_zero, add_zero]
      omega
    | ⟨1, _⟩ =>
      show (rowSegDims R C K wf).start (ix1 b) idx 1 + ((rowSegDims R C K wf).window (ix1 b) 1 : Int) = (c.val : Int)
      rw [rowSeg_start1, rowSeg_window1, ho]
      omega

end RowSeg

/-- Columns `o … o+K−1` of row `r₀` hold the update, every other element the operand. -/
theorem rowSegSet_apply {α : Type} {R C K w : Nat} (wf : ScatterDims.WF ⟨2, ![R, C]⟩ ⟨1, ![2]⟩ ⟨1, ![K]⟩ [0] [0] [0, 1] 0)
    (x : (⟨2, ![R, C]⟩ : Shape).Idx → α) (idx : IVec ⟨1, ![2]⟩ w) (upd : (⟨1, ![K]⟩ : Shape).Idx → α)
    (r₀ o : Nat) (hr : (idx (ix1 0)).toInt = (r₀ : Int)) (ho : (idx (ix1 1)).toInt = (o : Int)) (r : Fin R) (c : Fin C) :
    Host.scatter (rowSegDims R C K wf) (fun _ b => b) x idx upd (ix2 r c)
      = if h : r.val = r₀ ∧ o ≤ c.val ∧ c.val < o + K then upd (ix1 ⟨c.val - o, by omega⟩) else x (ix2 r c) := by
  by_cases h : r.val = r₀ ∧ o ≤ c.val ∧ c.val < o + K
  · rw [dif_pos h]
    refine scatter_set_hit _ x idx upd _ (ix1 ⟨c.val - o, by omega⟩) ?_ ?_
    · exact (rowSeg_resultIdx wf idx r₀ o hr ho _ _ _).mpr ⟨h.1, by show o + (c.val - o) = c.val; omega⟩
    · intro j' hj'
      obtain ⟨b, rfl⟩ : ∃ b : Fin K, j' = ix1 b := ⟨j' 0, eq_ix1 j'⟩
      obtain ⟨_, hb⟩ := (rowSeg_resultIdx wf idx r₀ o hr ho _ _ _).mp hj'
      have hbe : b = ⟨c.val - o, by omega⟩ := Fin.ext (by show b.val = c.val - o; omega)
      rw [hbe]
  · rw [dif_neg h]
    refine scatter_set_miss _ x idx upd _ fun j' hj' => h ?_
    obtain ⟨b, rfl⟩ : ∃ b : Fin K, j' = ix1 b := ⟨j' 0, eq_ix1 j'⟩
    obtain ⟨hr', hb⟩ := (rowSeg_resultIdx wf idx r₀ o hr ho _ _ _).mp hj'
    have := b.isLt
    exact ⟨hr', by omega, by omega⟩

end Idealize.ShloMosaic.ScatterSet

end
-- ==== Proof.LibPairIndex.lean ====
/-
  A MATRIX READ AND WRITTEN AT ONE INDEX PAIR PER ROW, read at an index.

  `x[r, c]` of a matrix `x : [N, N']` at integer arrays `r, c : [M]` is a `stablehlo.gather` whose start indices are
  the pairs `[M, 2]` (offset_dims `[]`, collapsed_slice_dims `[0, 1]`, start_index_map `[0, 1]`, index_vector_dim 1,
  slice_sizes `[1, 1]`), and `x.at[r, c].set(v)` is a `stablehlo.scatter` over the same pairs whose body returns the
  update. The pairs themselves are a `concatenate` along axis 1 of the two index vectors, each broadcast to a column.

  * `pairGather_apply`: the gather's element `j` is the operand at the pair `(idx[j, 0], idx[j, 1])`, each component
    read SIGNED and CLAMPED into the operand; `pairGather_apply_inRange` is the same when the pair is an operand index.
  * `pairSet_apply`: when pair `j`'s row component is `j` itself (`r = arange`), every update lands in its own row, so
    the result at `(r, c)` is update `r` when pair `r`'s column component is `c`, and the operand's element otherwise.
  * `pairs_col0` / `pairs_col1` / `column_apply`: the pairs array read at `(j, 0)` and `(j, 1)`.
  * `wrap_of_nonneg`: jnp's normalisation of a negative index (`select (i < 0) (i + n) i`) leaves a non-negative one.
-/
import Idealize.ShloMosaic.PureOps.Ideal
import Idealize.ShloMosaic.Lib.ValueIdx
import Idealize.ShloMosaic.Lib.Pipeline.Value
import proofs.«424430_j53566832115799_2_alg».proof.Proof.LibGatherScatter
import proofs.«424430_j53566832115799_2_alg».proof.Proof.LibScatterSet

noncomputable section

namespace Idealize.ShloMosaic.PairIndex

open Idealize.ShloMosaic Idealize.ShloMosaic.ValueIdx Idealize.ShloMosaic.GatherScatter Idealize.ShloMosaic.ScatterSet

/-! ## The gather at index pairs -/

section PairGather
variable {α : Type}

/-- The dimension numbers of `x[r, c]` for an operand `[N, N']`, start indices `[M, 2]` and result `[M]`; their
    conditions `wf` are decided on a program's literal shapes. -/
abbrev pairGatherDims (N N' M : Nat)
    (wf : GatherDims.WF ⟨2, ![N, N']⟩ ⟨2, ![M, 2]⟩ ⟨1, ![M]⟩ [] [0, 1] [] [0, 1] [] 1 ![1, 1]) :
    GatherDims ⟨2, ![N, N']⟩ ⟨2, ![M, 2]⟩ ⟨1, ![M]⟩ where
  offsetDims := []
  collapsedSliceDims := [0, 1]
  operandBatchingDims := []
  startIndicesBatchingDims := []
  startIndexMap := [0, 1]
  indexVectorDim := 1
  sliceSizes := ![1, 1]
  wf := wf

variable {N N' M w : Nat} (wf : GatherDims.WF ⟨2, ![N, N']⟩ ⟨2, ![M, 2]⟩ ⟨1, ![M]⟩ [] [0, 1] [] [0, 1] [] 1 ![1, 1])

/-- Result element `j`'s slice starts, on the operand's row axis, at `idx[j, 0]` read signed and clamped into
    `[0, N − 1]`. -/
theorem pairGather_start0 (idx : IVec ⟨2, ![M, 2]⟩ w) (j : Fin M) :
    (pairGatherDims N N' M wf).start (ix1 j) idx 0 = min (idx (ix2 j 0)).toInt.toNat (N - 1) := by
  have hmem : (0 : Fin 2) ∈ (pairGatherDims N N' M wf).startIndexMap :=
    (by decide : (0 : Fin 2) ∈ ([0, 1] : List (Fin 2)))
  have hsi : (pairGatherDims N N' M wf).siIdx (ix1 j) ⟨List.idxOf (0 : Fin 2) (pairGatherDims N N' M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- … and on the column axis at `idx[j, 1]` read signed and clamped into `[0, N' − 1]`. -/
theorem pairGather_start1 (idx : IVec ⟨2, ![M, 2]⟩ w) (j : Fin M) :
    (pairGatherDims N N' M wf).start (ix1 j) idx 1 = min (idx (ix2 j 1)).toInt.toNat (N' - 1) := by
  have hmem : (1 : Fin 2) ∈ (pairGatherDims N N' M wf).startIndexMap :=
    (by decide : (1 : Fin 2) ∈ ([0, 1] : List (Fin 2)))
  have hsi : (pairGatherDims N N' M wf).siIdx (ix1 j) ⟨List.idxOf (1 : Fin 2) (pairGatherDims N N' M wf).startIndexMap,
      List.idxOf_lt_length_iff.2 hmem⟩ = ix2 j 1 := by
    funext b; refine Fin.ext ?_
    match b with
    | ⟨0, _⟩ => rfl
    | ⟨1, _⟩ => rfl
  unfold GatherDims.start
  rw [dif_pos hmem, hsi]
  rfl

/-- THE GATHER READ AT `j`: the operand at the pair `(idx[j, 0], idx[j, 1])`, each component read signed and
    clamped into the operand. -/
theorem pairGather_apply (hN : 0 < N) (hN' : 0 < N')
    (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) :
    Host.gather (pairGatherDims N N' M wf) x idx (ix1 j)
      = x (ix2 ⟨min (idx (ix2 j 0)).toInt.toNat (N - 1), by omega⟩
               ⟨min (idx (ix2 j 1)).toInt.toNat (N' - 1), by omega⟩) := by
  unfold Host.gather
  congr 1
  funext a
  refine Fin.ext ?_
  rw [operandIdx_val, batchCoord_of_nil _ rfl, Nat.add_zero]
  match a with
  | ⟨0, _⟩ =>
    show (pairGatherDims N N' M wf).start (ix1 j) idx 0 + (pairGatherDims N N' M wf).offCoord (ix1 j) 0 = _
    rw [pairGather_start0, offCoord_of_collapsed _ _ (by decide : (0 : Fin 2) ∈ ([0, 1] : List (Fin 2)))]
    rfl
  | ⟨1, _⟩ =>
    show (pairGatherDims N N' M wf).start (ix1 j) idx 1 + (pairGatherDims N N' M wf).offCoord (ix1 j) 1 = _
    rw [pairGather_start1, offCoord_of_collapsed _ _ (by decide : (1 : Fin 2) ∈ ([0, 1] : List (Fin 2)))]
    rfl

/-- The gather at `j` when its pair is the operand index `(r, c)`: the operand there. -/
theorem pairGather_apply_inRange (wf : GatherDims.WF ⟨2, ![N, N']⟩ ⟨2, ![M, 2]⟩ ⟨1, ![M]⟩ [] [0, 1] [] [0, 1] [] 1 ![1, 1])
    (x : (⟨2, ![N, N']⟩ : Shape).Idx → α) (idx : IVec ⟨2, ![M, 2]⟩ w) (j : Fin M) (r : Fin N) (c : Fin N')
    (h0 : (idx (ix2 j 0)).toInt = (r.val : Int)) (h1 : (idx (ix2 j 1)).toInt = (c.val : Int)) :
    Host.gather (pairGatherDims N N' M wf) x idx (ix1 j) = x (ix2 r c) := by
  have hr := r.isLt
  have hc := c.isLt
  rw [pairGather_apply (by omega) (by omega) wf x idx j]
  congr 1
  funext a
  refine Fin.ext ?_
  match a with
  | ⟨0, _⟩ =>
    show min (idx (ix2 j 0)).toInt.toNat (N - 1) = r.val
    rw [h0, Int.toNat_natCast]; omega
  | ⟨1, _⟩ =>
    show min (idx (ix2 j 1)).toInt.toNat (N' - 1) = c.val
    rw [h1, Int.toNat_natCast]; omega

end PairGather

/-! ## Scalars set into a matrix, one per row -/

section PairSet
variable {α : Type} {N N' w : Nat}

/-- SET AT ONE PAIR PER ROW, read at `(r, c)`: with pair `j`'s row component `j` itself, update `r` when pair `r`'s column
    component, read signed, is `c`; the operand's element otherwise (a column component outside the operand lands
    nowhere). -/
theorem pairSet_apply (wf : ScatterDims.WF ⟨2, ![N, N']⟩ ⟨2, ![N, 2]⟩ ⟨1, ![N]⟩ [] [0, 1] [0, 1] 1)
    (x : (⟨2, ![N, N']⟩ : Shape).Idx → α) (idx : IVec ⟨2, ![N, 2]⟩ w) (upd : (⟨1, ![N]⟩ : Shape).Idx → α)
    (hrow : ∀ j : Fin N, (idx (ix2 j 0)).toInt = (j.val : Int)) (r : Fin N) (c : Fin N') :
    Host.scatter (pairScatterDims N N' N wf) (fun _ b => b) x idx upd (ix2 r c)
      = if (idx (ix2 r 1)).toInt = (c.val : Int) then upd (ix1 r) else x (ix2 r c) := by
  by_cases h : (idx (ix2 r 1)).toInt = (c.val : Int)
  · rw [if_pos h]
    refine scatter_set_hit _ x idx upd _ (ix1 r) ((pairScatter_resultIdx wf idx r r c).mpr ⟨hrow r, h⟩) ?_
    intro j' hj'
    obtain ⟨j, rfl⟩ : ∃ j : Fin N, j' = ix1 j := ⟨j' 0, eq_ix1 j'⟩
    have h0 := ((pairScatter_resultIdx wf idx j r c).mp hj').1
    rw [hrow j] at h0
    have e : j = r := Fin.ext (by exact_mod_cast h0)
    rw [e]
  · rw [if_neg h]
    refine scatter_set_miss _ x idx upd _ fun j' hj' => h ?_
    obtain ⟨j, rfl⟩ : ∃ j : Fin N, j' = ix1 j := ⟨j' 0, eq_ix1 j'⟩
    obtain ⟨h0, h1⟩ := (pairScatter_resultIdx wf idx j r c).mp hj'
    rw [hrow j] at h0
    have e : j = r := Fin.ext (by exact_mod_cast h0)
    rw [← e]; exact h1

end PairSet

/-! ## The pairs array -/

section Pairs
variable {α : Type} {M : Nat}

/-- A vector broadcast to a column reads, at `(j, 0)`, the vector at `j`. -/
theorem column_apply (h : (⟨1, ![M]⟩ : Shape).BroadcastsInDim ⟨2, ![M, 1]⟩ ![0]) (v : (⟨1, ![M]⟩ : Shape).Idx → α)
    (j : Fin M) : broadcastInDim ⟨2, ![M, 1]⟩ ![0] h v (ix2 j 0) = v (ix1 j) := by
  simp only [broadcastInDim]
  congr 1
  funext a
  obtain rfl : a = 0 := Subsingleton.elim _ _
  apply Fin.ext
  have hj := j.isLt
  split
  · next h1 => change M = 1 at h1; show (0 : Nat) = j.val; omega
  · rfl

/-- Two columns laid side by side read, at `(j, 0)`, the first column. -/
theorem pairs_col0 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 0) = a (ix2 j 0) :=
  concatenate_pair_apply_left (t := ⟨2, ![M, 2]⟩) (s₁ := ⟨2, ![M, 1]⟩) (s₂ := ⟨2, ![M, 1]⟩) (1 : Fin 2) a b h (ix2 j 0) rfl
      (ix2 j 0) fun d => by
    match d with
    | ⟨0, _⟩ => rfl
    | ⟨1, _⟩ => rfl

/-- … and, at `(j, 1)`, the second. -/
theorem pairs_col1 (h : Shape.Concatenates [(⟨2, ![M, 1]⟩ : Shape), ⟨2, ![M, 1]⟩] ⟨2, ![M, 2]⟩ 1)
    (a b : (⟨2, ![M, 1]⟩ : Shape).Idx → α) (j : Fin M) :
    concatenate ⟨2, ![M, 2]⟩ 1 [⟨⟨2, ![M, 1]⟩, a⟩, ⟨⟨2, ![M, 1]⟩, b⟩] h (ix2 j 1) = b (ix2 j 0) :=
  concatenate_pair_apply_right (t := ⟨2, ![M, 2]⟩) (s₁ := ⟨2, ![M, 1]⟩) (s₂ := ⟨2, ![M, 1]⟩) (1 : Fin 2) a b h (ix2 j 1) rfl rfl
    (ix2 j 0) (fun d hd => by
      match d with
      | ⟨0, _⟩ => rfl
      | ⟨1, _⟩ => exact absurd rfl hd) (by rfl)

end Pairs

/-! ## A non-negative index is not wrapped -/

/-- `select (i < 0) (i + n) i` at a word that is non-negative read signed is that word. -/
theorem wrap_of_nonneg (i n : BitVec 32) (h : 0 ≤ i.toInt) :
    Scalar.select (IntOp.cmpi .slt i 0#32) (IntOp.addi i n) i = i := by
  have : IntOp.cmpi .slt i 0#32 = 0#1 := by
    simp only [IntOp.cmpi]
    have : ¬ i.slt 0#32 := by
      simp only [BitVec.slt, BitVec.toInt_zero, decide_eq_true_eq, not_lt]; exact h
    simp [this]
  rw [this]
  exact select_zero _ _

end Idealize.ShloMosaic.PairIndex

end
-- ==== Proof.RefScatter.lean ====
/-
  THE REFERENCE'S RESULT IS THE MULTI-HOT ENCODING, where every id is non-negative. The reference scatters the value
  `1` into an array of zeros at the index pairs `(b, x[b, p])`, `b` over the `8192` rows and `p` over the ten ids of
  a row, each component first wrapped the way jnp wraps a negative index (`i + n` where `i < 0`): a row number and a
  non-negative id are left as they are. A pair outside the array lands nowhere. So the entry `(n, c)` ends at `1` when
  some pair is `(n, c)` — some id of row `n` is `c` read as a signed integer, which for a column `c < 2³¹` says the
  id is the word of `c` — and keeps the operand's `0` when none is; every update carries the same value, so which of
  several updates landing on one entry is taken last does not matter.
-/
import proofs.«424430_j53566832115799_2_alg».proof.Proof.Gen.ReferenceIdeal.Read
import proofs.«424430_j53566832115799_2_alg».proof.Proof.MultiHot
import proofs.«424430_j53566832115799_2_alg».proof.Proof.LibPairScatterRows
import proofs.«424430_j53566832115799_2_alg».proof.Proof.LibScatterSet
import proofs.«424430_j53566832115799_2_alg».proof.Proof.LibPairIndex
import Idealize.ShloMosaic.Lib.Pipeline.Value
import Idealize.ShloMosaic.Lib.StableHlo.Predicate
import Idealize.ShloMosaic.PureOps.Ideal.Laws

noncomputable section

namespace Cert.ReferenceIdeal.Hand

open Cert.ReferenceIdeal Cert.ReferenceIdeal.Gen Cert.ReferenceIdeal.Read Cert.MultiHot
open Idealize.ShloMosaic Idealize.ShloMosaic.ValueIdx Idealize.ShloMosaic.GatherScatter Idealize.ShloMosaic.ScatterSet
open Idealize.ShloMosaic.PairIndex Idealize.ShloMosaic.StableHlo.Predicate

variable (x : IVec S8192x10 32)

/-- The f32 word `0x3F800000` is the real number one. -/
theorem one_f32 : Ideal.ofBits .f32 0x3F800000#32 = 1 := by
  simp [Ideal.ofBits, Ideal.ieee, -EReal.coe_mul]; norm_num

/-- The row component of pair `(b, p)` is the word of `b`: a row number is not wrapped. -/
theorem rows_apply (b : Fin 8192) (p : Fin 10) :
    val_main_v14 (F := Ideal) (ix3 b p 0) = BitVec.ofNat 32 b.val := by
  rw [val_main_v14_apply, val_main_v13_apply, val_main_v7_apply, val_main_v4_apply, val_main_v6_apply, val_main_v2_apply,
    val_main_v3_apply, val_main_v5_apply, val_main_v1_apply, val_main_c_apply, val_main_c_0_apply]
  show Scalar.select (IntOp.cmpi .slt (BitVec.ofNat 32 b.val) 0#32) (IntOp.addi (BitVec.ofNat 32 b.val) 8192#32)
    (BitVec.ofNat 32 b.val) = BitVec.ofNat 32 b.val
  have hb := b.isLt
  exact wrap_of_nonneg _ _ (by rw [toInt_ofNat_small _ (by omega)]; omega)

/-- The column component of pair `(b, p)` is the id `x[b, p]` itself, when that id is non-negative. -/
theorem cols_apply (hx : ∀ i, 0 ≤ (x i).toInt) (b : Fin 8192) (p : Fin 10) :
    val_main_v15 (F := Ideal) x (ix3 b p 0) = x (ix2 b p) := by
  rw [val_main_v15_apply, val_main_v12_apply, val_main_v9_apply, val_main_v11_apply, val_main_v8_apply, val_main_v10_apply,
    val_main_c_1_apply, val_main_c_2_apply]
  have e : idx_main_v15 (ix3 b p 0) = ix2 b p := funext fun a => Fin.ext (by
    match a with
    | ⟨0, _⟩ => rfl
    | ⟨1, _⟩ => rfl)
  rw [e]
  exact wrap_of_nonneg _ _ (hx _)

/-- The pairs array at `(b, p, 0)`: the row component. -/
theorem pairs_row (b : Fin 8192) (p : Fin 10) : val_main_v16 (F := Ideal) x (ix3 b p 0) = BitVec.ofNat 32 b.val := by
  unfold val_main_v16
  refine (concatenate_pair_apply_left (t := S8192x10x2) (s₁ := S8192x10x1) (s₂ := S8192x10x1) (2 : Fin 3) _ _
    concatenates_S8192x10x1_S8192x10x1_S8192x10x2_d2 (ix3 b p 0) rfl (ix3 b p 0) fun d => by
      match d with
      | ⟨0, _⟩ => rfl
      | ⟨1, _⟩ => rfl
      | ⟨2, _⟩ => rfl).trans ?_
  exact rows_apply b p

/-- The pairs array at `(b, p, 1)`: the column component. -/
theorem pairs_col (hx : ∀ i, 0 ≤ (x i).toInt) (b : Fin 8192) (p : Fin 10) :
    val_main_v16 (F := Ideal) x (ix3 b p 1) = x (ix2 b p) := by
  unfold val_main_v16
  refine (concatenate_pair_apply_right (t := S8192x10x2) (s₁ := S8192x10x1) (s₂ := S8192x10x1) (2 : Fin 3) _ _
    concatenates_S8192x10x1_S8192x10x1_S8192x10x2_d2 (ix3 b p 1) rfl rfl (ix3 b p 0) (fun d hd => by
      match d with
      | ⟨0, _⟩ => rfl
      | ⟨1, _⟩ => rfl
      | ⟨2, _⟩ => exact absurd rfl hd) (by rfl)).trans ?_
  exact cols_apply x hx b p

/-- Every update carries the value one. -/
theorem update_apply (j : S8192x10.Idx) : val_main_v17 (F := Ideal) j = 1 := by
  rw [val_main_v17_apply, val_main_cst_3_apply]
  exact one_f32

/-- The operand is zero everywhere. -/
theorem operand_apply (i : S8192x32000.Idx) : val_main_v0 (F := Ideal) i = 0 := by
  rw [val_main_v0_apply, val_main_cst_apply]
  exact Ideal.ofBits_zero_f32

/-- Update `(b, p)` lands on entry `(n, c)` exactly when `b` is `n` and the id `x[b, p]` is the word of `c`. -/
theorem lands_iff (hx : ∀ i, 0 ≤ (x i).toInt) (b : Fin 8192) (p : Fin 10) (n : Fin 8192) (c : Fin 32000) :
    (pairRowsScatterDims 8192 32000 8192 10 scatter_S8192x32000_S8192x10x2_S8192x10_n_01_01_2_wf).resultIdx? (ix2 b p)
        (val_main_v16 (F := Ideal) x) = some (ix2 n c)
      ↔ (b = n ∧ x (ix2 b p) = BitVec.ofNat 32 c.val) := by
  rw [pairRowsScatter_resultIdx, pairs_row, pairs_col x hx]
  have hb := b.isLt
  have hn := n.isLt
  have hc := c.isLt
  rw [toInt_ofNat_small _ (by omega)]
  constructor
  · rintro ⟨h0, h1⟩
    refine ⟨Fin.ext (by exact_mod_cast h0), BitVec.eq_of_toInt_eq ?_⟩
    rw [h1, toInt_ofNat_small _ (by omega)]
  · rintro ⟨rfl, h1⟩
    refine ⟨rfl, ?_⟩
    rw [h1, toInt_ofNat_small _ (by omega)]

/-- THE REFERENCE'S RESULT, as the run states it, is the encoding of its argument. -/
theorem reference_is_multiHot (hx : ∀ i, 0 ≤ (x i).toInt) : val_main_v18 (F := Ideal) x = multiHot x := by
  funext i
  obtain ⟨n, c, rfl⟩ : ∃ (n : Fin 8192) (c : Fin 32000), i = ix2 n c := ⟨i 0, i 1, eq_ix2 i⟩
  rw [multiHot_apply]
  show Host.scatter (pairRowsScatterDims 8192 32000 8192 10 scatter_S8192x32000_S8192x10x2_S8192x10_n_01_01_2_wf)
    (fun _ b => b) (val_main_v0 (F := Ideal)) (val_main_v16 (F := Ideal) x) (val_main_v17 (F := Ideal)) (ix2 n c) = _
  by_cases h : ∃ k : Fin 10, x (ix2 n k) = BitVec.ofNat 32 c.val
  · rw [if_pos h]
    obtain ⟨k, hk⟩ := h
    rw [scatter_set_hit _ _ _ _ _ (ix2 n k) ((lands_iff x hx n k n c).mpr ⟨rfl, hk⟩)
      (fun j' _ => by rw [update_apply, update_apply])]
    exact update_apply _
  · rw [if_neg h]
    rw [scatter_set_miss _ _ _ _ _ fun j' hj' => h ?_]
    · exact operand_apply _
    · obtain ⟨b, p, rfl⟩ : ∃ (b : Fin 8192) (p : Fin 10), j' = ix2 b p := ⟨j' 0, j' 1, eq_ix2 j'⟩
      obtain ⟨rfl, hp⟩ := (lands_iff x hx b p n c).mp hj'
      exact ⟨p, hp⟩

end Cert.ReferenceIdeal.Hand

end
-- ==== Proof.NonNegIds.lean ====
/-
  THE PRECONDITION, READ: it is `jnp.all(x >= 0)`, a signed comparison of every id with the word `0` reduced by
  `and` over both axes; where it holds every id, read as a signed integer, is non-negative.
-/
import proofs.«424430_j53566832115799_2_alg».proof.Pre_any_inputs
import Idealize.ShloMosaic.Lib.ReduceAll
import Idealize.ShloMosaic.Lib.ValueIdx

noncomputable section

namespace Cert.Pre_any_inputs.Hand

open Cert.Pre_any_inputs Idealize.ShloMosaic

instance : Subsingleton S_.Idx := ⟨fun a b => funext fun d => d.elim0⟩

/-- Where the precondition is all ones, every id is non-negative read signed. -/
theorem nonneg_of_pre {F : FTy → Type} [FloatOps F] [Facts] (x : IVec S8192x10 32)
    (h : fn (F := F) x = fun _ => 1#1) (i : S8192x10.Idx) : 0 ≤ (x i).toInt := by
  have h0 := congrFun h ValueIdx.ix0
  dsimp only [fn] at h0
  have h1 := Host.reduce_andi_all _ _ _ _ _ h0 i
  have h2 : IntOp.cmpi .sge (x i) 0#32 = 1#1 := h1
  simp only [IntOp.cmpi] at h2
  have h3 : (0#32).sle (x i) = true := by
    cases hb : (0#32).sle (x i)
    · rw [hb] at h2; exact absurd h2 (by decide)
    · rfl
  simpa [BitVec.sle] using h3

end Cert.Pre_any_inputs.Hand

end
-- ==== Proof.lean ====
/-
  A TEN-HOT ENCODER AGAINST A SCATTER. The kernel takes a table `x` of token ids, `[8192, 10]` 32-bit integers, and writes the
  `[8192, 32000]` f32 array whose entry `(n, c)` is `1` when one of row `n`'s ten ids equals the column number `c` and `0`
  otherwise: over an `8 × 10` grid of `[1024, 3200]` blocks it compares an iota of column numbers with each id column, joins
  the ten tests by `or` and converts the bit to a float. The reference scatters the value `1` into zeros at the index pairs
  `(n, x[n, k])`, jnp wrapping a negative index from the end of its axis and dropping a pair outside the array.

  The precondition asks every id to be non-negative. Under it the wrap leaves the ids alone, so the reference's entry `(n, c)`
  is `1` exactly when some `x[n, k]`, read as a signed integer, is `c`; for `c < 32000 < 2³¹` that is the kernel's word
  equality (an id of `32000` or more matches no column in the kernel and lands outside the array in the reference). Both
  programs therefore end at one function of `x`, `Cert.MultiHot.multiHot`: the kernel by its blocks tiling the array
  (Proof/KernelBlock.lean, Proof/KernelValue.lean), the reference by reading its scatter at an index (Proof/RefScatter.lean);
  nothing is rounded on either side, the only floats being the constants `0` and `1`. The ideal pass rewrote nothing, so the
  kernel's idealization is the kernel's own text and `preserves` has no conjunct.
-/
import proofs.«424430_j53566832115799_2_alg».proof.Defs
import proofs.«424430_j53566832115799_2_alg».proof.Proof.Gen.Kernel
import proofs.«424430_j53566832115799_2_alg».proof.Proof.Gen.Kernel.Skeleton
import proofs.«424430_j53566832115799_2_alg».proof.Proof.Gen.Kernel.Launch
import proofs.«424430_j53566832115799_2_alg».proof.Proof.Gen.Kernel.Points
import proofs.«424430_j53566832115799_2_alg».proof.Proof.FrameKernel
import proofs.«424430_j53566832115799_2_alg».proof.Proof.Gen.KernelIdeal
import proofs.«424430_j53566832115799_2_alg».proof.Proof.Gen.KernelIdeal.Skeleton
import proofs.«424430_j53566832115799_2_alg».proof.Proof.Gen.KernelIdeal.Launch
import proofs.«424430_j53566832115799_2_alg».proof.Proof.Gen.KernelIdeal.Points
import proofs.«424430_j53566832115799_2_alg».proof.Proof.FrameKernelIdeal
import proofs.«424430_j53566832115799_2_alg».proof.Proof.ValueKernelIdeal
import proofs.«424430_j53566832115799_2_alg».proof.Proof.Gen.ReferenceIdeal.Run
import proofs.«424430_j53566832115799_2_alg».proof.Proof.Gen.ReferenceIdeal.Read
import proofs.«424430_j53566832115799_2_alg».proof.Proof.Gen.ReferenceIdeal
import proofs.«424430_j53566832115799_2_alg».proof.Proof.Gen.Pre_any_inputs
import proofs.«424430_j53566832115799_2_alg».proof.Proof.KernelValue
import proofs.«424430_j53566832115799_2_alg».proof.Proof.RefScatter
import proofs.«424430_j53566832115799_2_alg».proof.Proof.NonNegIds
import Idealize.ShloMosaic.Adequacy
import Idealize.ShloMosaic.Init

noncomputable section

namespace Cert.Proof

open Idealize.ShloMosaic Idealize.ShloMosaic.TcCoe Idealize.SL.Sem

/-- The kernel as printed runs and leaves the id table as it was. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and leaves the id table as it was: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the multi-hot encoding of the id table: the kernel by its blocks, the reference by its scatter
    read at an index, the ids being non-negative by the precondition. -/
theorem algebraic : Cert.algebraic_KernelIdeal_ReferenceIdeal := by
  intro m ρ m' ρ' hpre hagree
  refine ⟨fun c => Cert.MultiHot.multiHot (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v18_eq _).trans
    (Cert.ReferenceIdeal.Hand.reference_is_multiHot _ (Cert.Pre_any_inputs.Hand.nonneg_of_pre (F := Ideal) _ (hpre c)))

theorem claim : Cert.Claim := ⟨Cert.Kernel.Gen.facts, Cert.KernelIdeal.Gen.facts, Cert.ReferenceIdeal.Gen.facts, Cert.Pre_any_inputs.Gen.facts,
  frame_kernel, frame_kernelIdeal, frame_reference, trivial, algebraic⟩

end Cert.Proof

end
